-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : IVec S2x1600000 32) (main_arg2 : FVec F S64x64 .f32) (main_arg3 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S5000x64 : Shape := ⟨2, ![5000, 64]⟩
abbrev S5000x1 : Shape := ⟨2, ![5000, 1]⟩

abbrev nBuf : Space → Nat
  | .hbm => 29
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S100000x1, .f32⟩
  | .hbm, ⟨28, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000, .f32⟩
  | .hbm, ⟨23, _⟩ => ⟨S_, .f32⟩
  | .hbm, ⟨24, _⟩ => ⟨S100000, .f32⟩
  | .hbm, ⟨25, _⟩ => ⟨S1600000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | .hbm, ⟨36, _⟩ => ⟨S64x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  What both programs compute, as one function of the arrays they read.

  Every node `r` has an aggregate row `agg r` (the sum of the features of the nodes with an edge into `r`), a
  degree `deg r` (how many such edges), and its own feature row `x r`. The degree is made safe for division:
  a degree equal to zero is replaced by one. Output entry `(r, q)` is

      ∑ k, (agg r k / safe (deg r)) * W q k  +  ∑ k, x r k * B q k,

  the normalised aggregate times `Wᵀ` plus the node's features times `Bᵀ`, over the extended reals. The division is
  taken before the product and the two sums are kept apart, which is the grouping of both programs, so no law of
  arithmetic is needed to join them.
-/
import Idealize.ShloMosaic.PureOps.Ideal
import Idealize.ShloMosaic.Lib.ValueIdx

noncomputable section

namespace Cert.DualLinear

open Idealize.ShloMosaic Idealize.ShloMosaic.ValueIdx

/-- The node-by-feature arrays, and the two square weight matrices. -/
abbrev SNodes : Shape := ⟨2, ![100000, 64]⟩
abbrev SWeight : Shape := ⟨2, ![64, 64]⟩

/-- A degree made safe to divide by: one where the degree equals zero, the degree itself elsewhere. The comparison
    is the ordered float equality with the word of zero, and the replacement is the word of one, as both programs
    spell them. -/
def safeDeg (d : EReal) : EReal :=
  Scalar.select (FloatOps.cmpf (F := Ideal) .oeq d (Ideal.ofBits .f32 0x00000000#32)) (Ideal.ofBits .f32 0x3F800000#32) d

/-- Output entry `(r, q)`: the degree-normalised aggregate row against row `q` of `W`, plus the node's own row
    against row `q` of `B`. -/
def entry (agg x : SNodes.Idx → EReal) (deg : Fin 100000 → EReal) (W B : SWeight.Idx → EReal) (r : Fin 100000) (q : Fin 64) : EReal :=
  (∑ k : Fin 64, Ideal.div (agg (ix2 r k)) (safeDeg (deg r)) * W (ix2 q k)) + ∑ k : Fin 64, x (ix2 r k) * B (ix2 q k)

/-- The whole output array. -/
def result (agg x : SNodes.Idx → EReal) (deg : Fin 100000 → EReal) (W B : SWeight.Idx → EReal) : SNodes.Idx → EReal :=
  fun i => entry agg x deg W B (i 0) (i 1)

theorem result_apply (agg x : SNodes.Idx → EReal) (deg : Fin 100000 → EReal) (W B : SWeight.Idx → EReal) (r : Fin 100000) (q : Fin 64) :
    result agg x deg W B (ix2 r q) = entry agg x deg W B r q := rfl

end Cert.DualLinear

end
-- ==== Proof.Body.lean ====
/-
  The kernel's body at one grid point, read at one output entry.

  The body loads a block of 5000 aggregate rows `a`, the same rows of the features `x`, the column `d` of their
  degrees, and the two weight matrices `W`, `B` whole. It replaces a zero degree by one, divides every aggregate
  row by its safe degree, and stores the sum of two matrix products, each into a zero accumulator, against the
  transposed weights. At the ideal instance the narrowing of the factors to bf16 is the identity and a product
  into a zero accumulator is the plain sum over the contracted axis, so entry `(p, q)` of what is stored is

      ∑ k, (a p k / safe (d p)) * W q k  +  ∑ k, x p k * B q k.
-/
import proofs.«129463_j31671088841315_1_alg».proof.Proof.Gen.KernelIdeal.Skeleton
import proofs.«129463_j31671088841315_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.DualLinear

/-! ## The operand indices of the block product: rows times the contracted axis, the contracted axis times columns -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block of rows times a square matrix into the zero accumulator, at entry `(p, q)`: the sum over the
    contracted axis of row `p` of the left factor against column `q` of the right. -/
theorem blockProduct_apply (L : FVec Ideal S5000x64 .bf16) (R : FVec Ideal S64x64 .bf16) (p : Fin 5000) (q : Fin 64) :
    matmul dot_S5000x64_S64x64_S5000x64_1_0_0_1_n_n none L R (constant S5000x64 .f32 0x00000000#32) (ix2 p q)
      = ∑ k : Fin 64, L (ix2 p k) * R (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The degree column laid over the 64 features: entry `(p, k)` is the column's entry `p`. -/
theorem column_over_features (u : FVec Ideal S5000x1 .f32) (p : Fin 5000) (k : Fin 64) :
    broadcastTo S5000x64 u broadcasts_S5000x1_S5000x64 (ix2 p k) = u (ix2 p 0) :=
  broadcastTo_apply u broadcasts_S5000x1_S5000x64 (ix2 p k) (ix2 p 0) (fun a => match a with
    | ⟨0, _⟩ => by show p.val = if (5000 : Nat) = 1 then 0 else p.val; rw [if_neg (by decide)]
    | ⟨1, _⟩ => by show 0 = if (1 : Nat) = 1 then 0 else k.val; rw [if_pos rfl])

/-- What the body stores, at entry `(p, q)` of the block. -/
theorem stored_apply (d : Vec Ideal S5000x1 .f32) (a x : Vec Ideal S5000x64 .f32) (W B : Vec Ideal S64x64 .f32) (p : Fin 5000) (q : Fin 64) :
    k0_pay1 (F := Ideal) d a x W B (ix2 p q)
      = (∑ k : Fin 64, Ideal.div (a (ix2 p k)) (safeDeg (d (ix2 p 0))) * W (ix2 q k)) + ∑ k : Fin 64, x (ix2 p k) * B (ix2 q k) := by
  unfold k0_pay1
  dsimp only
  rw [addf_apply, blockProduct_apply, blockProduct_apply]
  simp only [shapeCast_self]
  congr 1
  · refine Finset.sum_congr rfl fun k _ => ?_
    rw [transpose_ix2_apply]
    show Ideal.div (a (ix2 p k)) (broadcastTo S5000x64 _ broadcasts_S5000x1_S5000x64 (ix2 p k)) * W (ix2 q k) = _
    rw [column_over_features]
    rfl
  · refine Finset.sum_congr rfl fun k _ => ?_
    rw [transpose_ix2_apply]
    rfl

end Cert.KernelIdeal.Body

end
-- ==== Proof.Entry.lean ====
/-
  What the kernel's region finds in the two arrays the host computes for it.

  Before the region the host gathers, for every edge, the feature row of the edge's source node, and adds those rows
  onto a zero array at the edge's destination node: the aggregate `aggregate x e`. It also adds a one per edge onto a
  zero vector at the edge's destination: the degree `degree e`, which it then lays out as a column. Both are functions
  of the feature array `x` and the edge array `e` alone. They are kept closed here: the reference computes them by the
  same operations, so nothing of the gather or of the two scatter-adds is ever read.
-/
import proofs.«129463_j31671088841315_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem Idealize.ShloMosaic.StableHlo

variable {F : FTy → Type} [FloatOps F]

/-- The destination node of every edge, as a column of indices: row 1 of the edge array. -/
def destinations (e : (⟨S2x1600000, .i32⟩ : BufTy).Contents (Elt F)) : (⟨S1600000x1, .i32⟩ : BufTy).Contents (Elt F) :=
  broadcastInDim S1600000x1 ![0] bcast_S1600000_S1600000x1_0 (shapeCast _ (extractStridedSlice S1x1600000 ![1, 0] e slices_S2x1600000_S1x1600000_1_0) shapeCasts_S1x1600000_S1600000)

/-- The source node of every edge, as a column of indices: row 0 of the edge array, a negative word moved up by the
    number of nodes. -/
def sources (e : (⟨S2x1600000, .i32⟩ : BufTy).Contents (Elt F)) : (⟨S1600000x1, .i32⟩ : BufTy).Contents (Elt F) :=
  broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))

/-- The aggregate: the source rows of the features added onto zero at the destination nodes. -/
def aggregate (x : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1600000x1_S1600000x64_1_0_0_1 (broadcastInDim S100000x64 ![] bcast_S_S100000x64 (constant (F := F) S_ .f32 0x00000000#32)) (destinations e)
    (Host.gather gather_S100000x64_S1600000x1_S1600000x64_1_0_n_n_0_1_164 x (sources e))

/-- The degree: a one per edge added onto zero at the edge's destination node. -/
def degree (e : (⟨S2x1600000, .i32⟩ : BufTy).Contents (Elt F)) : (⟨S100000, .f32⟩ : BufTy).Contents (Elt F) :=
  Host.scatterAdd scatter_S100000_S1600000x1_S1600000_n_0_0_1 (broadcastInDim S100000 ![] bcast_S_S100000 (constant (F := F) S_ .f32 0x00000000#32)) (destinations e)
    (broadcastInDim S1600000 ![] bcast_S_S1600000 (constant (F := F) S_ .f32 0x3F800000#32))

variable (m : (ℓ : Loc nD τ sig) → Buf (Elt F) ℓ)

/-- The region finds the aggregate in its first window's array. -/
theorem found_aggregate (c : Dev nD) :
    (V m c main_v13 : S100000x64.Idx → Elt F .f32) = aggregate (F := F) (m ((c : Thread nD τ).loc main_arg0)) (m ((c : Thread nD τ).loc main_arg1)) := by
  dsimp only [Gen.V, Gen.hostOps0]
  after_results
  rfl

/-- The region finds the degree, laid out as a column, in its third window's array. -/
theorem found_degree (c : Dev nD) :
    (V m c main_v18 : S100000x1.Idx → Elt F .f32) = shapeCast S100000x1 (degree (F := F) (m ((c : Thread nD τ).loc main_arg1))) shapeCasts_S100000_S100000x1 := by
  dsimp only [Gen.V, Gen.hostOps0]
  after_results
  rfl

end Cert.KernelIdeal.Entry

end
-- ==== Proof.Array.lean ====
/-
  The kernel's whole output array, from what each grid point writes.

  The grid has 20 points. Point `t` reads rows `5000 t … 5000 t + 4999` of the aggregate, of the features and of the
  degree column, and both weight matrices whole, and writes the same rows of the output. That is a fact about the
  blocking alone, so it is proved first for ANY five arrays: a block entry is the array's entry `5000 t` rows further
  down (the weights' one block is the matrix), hence entry `(p, q)` of what point `t` stores is entry
  `(5000 t + p, q)` of ONE function of the five arrays, `Cert.DualLinear.result`. Taken at the arrays the region
  finds, every point writes its row block of that function, and since the 20 row blocks cover all 100000 rows, the
  output array after the run is that function.
-/
import proofs.«129463_j31671088841315_1_alg».proof.Proof.Gen.KernelIdeal.Value
import proofs.«129463_j31671088841315_1_alg».proof.Proof.Body
import Idealize.ShloMosaic.Lib.Pipeline.Value
import Idealize.ShloMosaic.Lib.Tactic

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.DualLinear
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- Where each window's block sits at point `t`: the three row-blocked inputs and the output at row block `t`,
    the two weight matrices at their only block. Decided over the 20 points. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## A block of a window, read off ANY array: rows `5000 t …` for the three row-blocked inputs, the whole matrix for the weights -/

/-- Entry `y` of window 0's block at point `t`, read off an array `A`, is `A`'s entry `5000 t` rows further down. -/
theorem rows_of_window0 (A : S100000x64.Idx → EReal) (t : Fin cfg0.N) (y : S5000x64.Idx) (k : S100000x64.Idx)
    (hk0 : (k 0).val = 5000 * t.val + (y 0).val) (hk1 : (k 1).val = (y 1).val) :
    (((cfg0.win 0).blk t).view.read (Elt Ideal) A : Vec Ideal S5000x64 .f32) y = A k := by
  obtain ⟨e0, e1, -⟩ := block_indices t
  show A (((cfg0.win 0).blk t).view.emb y) = A k
  refine congrArg A (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 64 + 1 * (y 1).val = (k 1).val; rw [e1, hk1]; omega

/-- The same for window 1. -/
theorem rows_of_window1 (A : S100000x64.Idx → EReal) (t : Fin cfg0.N) (y : S5000x64.Idx) (k : S100000x64.Idx)
    (hk0 : (k 0).val = 5000 * t.val + (y 0).val) (hk1 : (k 1).val = (y 1).val) :
    (((cfg0.win 1).blk t).view.read (Elt Ideal) A : Vec Ideal S5000x64 .f32) y = A k := by
  obtain ⟨-, -, e0, e1, -⟩ := block_indices t
  show A (((cfg0.win 1).blk t).view.emb y) = A k
  refine congrArg A (funext fun a => Fin.ext ?_)
  match a with
  | ⟨0, _⟩ => show win0_1.index t (0 : Fin 2) * 5000 + 1 * (y 0).val = (k 0).val; rw [e0, hk0]; omega
  | ⟨1, _⟩ => show win0_1.index t (1 : Fin 2) * 64 + 1 * (y 1).val = (k 1).val; rw [e1, hk1]; omega

/-- The same for window 2, whose array is a column. -/
theorem rows_of_window2 (A : S100000x1.Idx → EReal) (t : Fin cfg0.N) (y : S5000x1.Idx) (k : S100000x1.Idx)
    (hk0 : (k 0).val = 5000 * t.val + (y 0).val) (hk1 : (k 1).val = (y 1).val) :
    (((cfg0.win 2).blk t).view.read (Elt Ideal) A : Vec Ideal S5000x1 .f32) y = A k := by
  obtain ⟨-, -, -, -, e0, e1, -⟩ := block_indices t
  show A (((cfg0.win 2).blk t).view.emb y) = A k
  refine congrArg A (funext fun a => Fin.ext ?_)
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- Window 3's one block is its whole matrix. -/
theorem whole_of_window3 (A : S64x64.Idx → EReal) (t : Fin cfg0.N) (y : S64x64.Idx) :
    (((cfg0.win 3).blk t).view.read (Elt Ideal) A : Vec Ideal S64x64 .f32) y = A y := by
  obtain ⟨-, -, -, -, -, -, e0, e1, -⟩ := block_indices t
  show A (((cfg0.win 3).blk t).view.emb y) = A y
  refine congrArg A (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The same for window 4. -/
theorem whole_of_window4 (A : S64x64.Idx → EReal) (t : Fin cfg0.N) (y : S64x64.Idx) :
    (((cfg0.win 4).blk t).view.read (Elt Ideal) A : Vec Ideal S64x64 .f32) y = A y := by
  obtain ⟨-, -, -, -, -, -, -, -, e0, e1, -⟩ := block_indices t
  show A (((cfg0.win 4).blk t).view.emb y) = A y
  refine congrArg A (funext fun a => Fin.ext ?_)
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-! ## One point's block of the result, over ANY five arrays -/

/-- The body's result for the output window, run on the blocks of ANY aggregate `A`, features `X`, degree column
    `D` and weights `W`, `B` at point `t`, is block `t` of `result A X (the column's entries) W B`: entry `(p, q)`
    of what is stored is `result`'s entry `(5000 t + p, q)`, every block entry being the array's entry `5000 t` rows
    further down. Stated over arbitrary arrays so that it is about the blocking alone. -/
theorem block_of_result (A X : S100000x64.Idx → EReal) (D : S100000x1.Idx → EReal) (W B : S64x64.Idx → EReal) (t : Fin cfg0.N) :
    (cfg0.win 5).cut (grid0.coords t)
        (out0_5 (F := Ideal) (((cfg0.win 0).blk t).view.read (Elt Ideal) A) (((cfg0.win 1).blk t).view.read (Elt Ideal) X)
          (((cfg0.win 2).blk t).view.read (Elt Ideal) D) (((cfg0.win 3).blk t).view.read (Elt Ideal) W) (((cfg0.win 4).blk t).view.read (Elt Ideal) B))
      = ((cfg0.win 5).blk t).view.read (Elt Ideal) (result A X (fun r => D (ix2 r 0)) W B) := by
  unfold out0_5
  rw [View.canon_unit_zero offsets_zero]
  simp only [View.ld_unit_zero (S := S5000x64) offsets_zero, View.ld_unit_zero (S := S5000x1) offsets_zero, View.ld_unit_zero (S := S64x64) offsets_zero]
  obtain ⟨-, -, -, -, -, -, -, -, -, -, e0, e1⟩ := block_indices t
  funext j
  obtain ⟨p, q, rfl⟩ : ∃ (p : Fin 5000) (q : Fin 64), j = ix2 p q := ⟨j 0, j 1, eq_ix2 j⟩
  show k0_pay1 (F := Ideal) (((cfg0.win 2).blk t).view.read (Elt Ideal) D) (((cfg0.win 0).blk t).view.read (Elt Ideal) A)
      (((cfg0.win 1).blk t).view.read (Elt Ideal) X) (((cfg0.win 3).blk t).view.read (Elt Ideal) W) (((cfg0.win 4).blk t).view.read (Elt Ideal) B) (ix2 p q)
    = result A X (fun r => D (ix2 r 0)) W B (((cfg0.win 5).blk t).view.emb (ix2 p q))
  refine (stored_apply _ _ _ _ _ p q).trans ?_
  have hr : ((((cfg0.win 5).blk t).view.emb (ix2 p q)) 0).val = 5000 * t.val + p.val := by
    show win0_5.index t (0 : Fin 2) * 5000 + 1 * p.val = _; rw [e0]; omega
  have hq : (((cfg0.win 5).blk t).view.emb (ix2 p q)) 1 = q := Fin.ext (by
    show win0_5.index t (1 : Fin 2) * 64 + 1 * q.val = _; rw [e1]; omega)
  show _ = entry A X (fun r => D (ix2 r 0)) W B ((((cfg0.win 5).blk t).view.emb (ix2 p q)) 0) ((((cfg0.win 5).blk t).view.emb (ix2 p q)) 1)
  rw [hq]
  unfold entry
  refine congrArg₂ (· + ·) ?_ ?_
  · refine Finset.sum_congr rfl fun k _ => ?_
    rw [rows_of_window0 A t (ix2 p k) (ix2 ((((cfg0.win 5).blk t).view.emb (ix2 p q)) 0) k) hr rfl,
      rows_of_window2 D t (ix2 p 0) (ix2 ((((cfg0.win 5).blk t).view.emb (ix2 p q)) 0) 0) hr rfl,
      whole_of_window3 W t (ix2 q k)]
  · refine Finset.sum_congr rfl fun k _ => ?_
    rw [rows_of_window1 X t (ix2 p k) (ix2 ((((cfg0.win 5).blk t).view.emb (ix2 p q)) 0) k) hr rfl,
      whole_of_window4 B t (ix2 q k)]

/-! ## The output array -/

/-- The output as one function of the arrays the region finds: the degree of node `r` is entry `(r, 0)` of the
    degree column. -/
abbrev whole (c : Dev nD) : S100000x64.Idx → EReal :=
  result (V m c main_v13) (V m c main_arg0) (fun r => (V m c main_v18 : S100000x1.Idx → EReal) (ix2 r 0)) (V m c main_arg2) (V m c main_arg3)

/-- Each window's block at a point is its array read through the block's rectangle. -/
theorem block_reads (c : Dev nD) (t : Fin cfg0.N) :
    (iblk m c 0 t : Vec Ideal S5000x64 .f32) = ((cfg0.win 0).blk t).view.read (Elt Ideal) (V m c main_v13)
    ∧ (iblk m c 1 t : Vec Ideal S5000x64 .f32) = ((cfg0.win 1).blk t).view.read (Elt Ideal) (V m c main_arg0)
    ∧ (iblk m c 2 t : Vec Ideal S5000x1 .f32) = ((cfg0.win 2).blk t).view.read (Elt Ideal) (V m c main_v18)
    ∧ (iblk m c 3 t : Vec Ideal S64x64 .f32) = ((cfg0.win 3).blk t).view.read (Elt Ideal) (V m c main_arg2)
    ∧ (iblk m c 4 t : Vec Ideal S64x64 .f32) = ((cfg0.win 4).blk t).view.read (Elt Ideal) (V m c main_arg3) :=
  ⟨rfl, rfl, rfl, rfl, rfl⟩

/-- What point `t` writes back is block `t` of that function: `block_of_result` at the arrays the region finds. -/
theorem flushed_eq (c : Dev nD) (t : Fin cfg0.N) :
    (dats m 0 c).flushed 5 t = ((cfg0.win 5).blk t).view.read (Elt Ideal) (whole m c) := by
  obtain ⟨b0, b1, b2, b3, b4⟩ := block_reads m c t
  rw [Value.flushed5, b0, b1, b2, b3, b4]
  exact block_of_result (V m c main_v13) (V m c main_arg0) (V m c main_v18) (V m c main_arg2) (V m c main_arg3) t

/-- An index of the output array is in point `t`'s block iff each coordinate is in the block's range on its axis. -/
theorem mem_block (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v19).slice (win0_5.rect t)).set ↔ _
  rw [View.set_slice_whole, Rect.mem_set_unit]
  exact Iff.rfl

/-- Every entry of the output lies in the block of the point its row falls to: row `r` in block `r / 5000`. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 64 ≤ (i 1).val ∧ (i 1).val < win0_5.index t (1 : Fin 2) * 64 + 64; rw [e1]; omega

/-- So after the run the output array is that function. -/
theorem final (c : Dev nD) : (dats m 0 c).arrAt 5 cfg0.N = whole m c :=
  (dats m 0 c).arrAt_eq_of_cover 5 (whole m c) (fun t _ => flushed_eq m c t) covered

/-- The run, read: the output array at `result` of the arrays the region finds, the arguments unchanged. -/
theorem run : θ_run defs (onTc (τ := τ) (main (F := Ideal))) ⟨m, fun _ => 0, ρ⟩ fun r => ∀ c : Dev nD,
      r.2.mem ((c : Thread nD τ).loc main_v19) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Whole

end
-- ==== Proof.Reference.lean ====
/-
  The reference's result is the same function of its own aggregate and degree.

  The reference computes the aggregate and the degree by the operations the kernel's host side uses, replaces a zero
  degree by one on the degree VECTOR, lays the safe degree over the 64 features (first as a column, then across),
  divides, and adds two matrix products with the transposed weights. Read at entry `(r, q)` — the products as sums
  over the contracted axis, the transposes by swapping coordinates, the two layings-over by dropping the feature
  coordinate — this is

      ∑ k, (agg r k / safe (deg r)) * W q k  +  ∑ k, x r k * B q k,

  which is `Cert.DualLinear.result` at the reference's aggregate `val_main_v13` and degree `val_main_v17`.
-/
import proofs.«129463_j31671088841315_1_alg».proof.Proof.RefRead
import proofs.«129463_j31671088841315_1_alg».proof.Proof.Spec
import Idealize.ShloMosaic.Lib.ValueIdx

noncomputable section

namespace Cert.ReferenceIdeal.AtEntry

open Cert.ReferenceIdeal Cert.ReferenceIdeal.Gen Cert.ReferenceIdeal.ReadP
open Idealize.ShloMosaic Idealize.ShloMosaic.ValueIdx Cert.DualLinear

/-- The degree-normalised aggregate at `(r, k)`: the aggregate's entry over the safe degree of node `r`. -/
theorem normalised_apply (x0 : (⟨S100000x64, .f32⟩ : BufTy).Contents (Elt Ideal)) (x1 : (⟨S2x1600000, .i32⟩ : BufTy).Contents (Elt Ideal))
    (r : Fin 100000) (k : Fin 64) :
    val_main_v24 (F := Ideal) x0 x1 (ix2 r k)
      = Ideal.div (val_main_v13 (F := Ideal) x0 x1 (ix2 r k)) (safeDeg (val_main_v17 (F := Ideal) x1 (ix1 r))) := by
  have e : idx_main_v22 (idx_main_v23 (ix2 r k)) = ix1 r := funext fun a => Fin.ext (by
    match a with
    | ⟨0, _⟩ => rfl)
  rw [val_main_v24_apply, val_main_v23_apply, val_main_v22_apply, val_main_v21_apply, val_main_v19_apply,
    val_main_v20_apply, val_main_v18_apply, val_main_cst_3_apply, val_main_cst_4_apply, e]
  rfl

/-- The reference's result array is `result` of its aggregate, the features, its degree and the two weight matrices. -/
theorem result_eq (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) :
    val_main_v29 (F := Ideal) x0 x1 x2 x3
      = result (val_main_v13 (F := Ideal) x0 x1) x0 (fun r => val_main_v17 (F := Ideal) x1 (ix1 r)) x2 x3 := by
  funext i
  obtain ⟨r, q, rfl⟩ : ∃ (r : Fin 100000) (q : Fin 64), i = ix2 r q := ⟨i 0, i 1, eq_ix2 i⟩
  rw [result_apply, val_main_v29_apply, val_main_v26_apply, val_main_v28_apply]
  unfold entry
  show (∑ k : Fin 64, _ * _) + (∑ k : Fin 64, _ * _) = _
  refine congrArg₂ (· + ·) ?_ ?_
  · refine Finset.sum_congr rfl fun k _ => ?_
    have e1 : lidx_main_v26 (ix2 r q) k = ix2 r k := funext fun a => Fin.ext (by
      match a with
      | ⟨0, _⟩ => rfl
      | ⟨1, _⟩ => rfl)
    have e2 : idx_main_v25 (ridx_main_v26 (ix2 r q) k) = ix2 q k := funext fun a => Fin.ext (by
      match a with
      | ⟨0, _⟩ => rfl
      | ⟨1, _⟩ => rfl)
    rw [val_main_v25_apply, e1, e2, normalised_apply]
  · refine Finset.sum_congr rfl fun k _ => ?_
    have e1 : lidx_main_v28 (ix2 r q) k = ix2 r k := funext fun a => Fin.ext (by
      match a with
      | ⟨0, _⟩ => rfl
      | ⟨1, _⟩ => rfl)
    have e2 : idx_main_v27 (ridx_main_v28 (ix2 r q) k) = ix2 q k := funext fun a => Fin.ext (by
      match a with
      | ⟨0, _⟩ => rfl
      | ⟨1, _⟩ => rfl)
    rw [val_main_v27_apply, e1, e2]

end Cert.ReferenceIdeal.AtEntry

end
-- ==== Proof.SameHost.lean ====
/-
  The two programs compute the aggregate and the degree by the same host operations.

  The kernel's program and the reference gather the source rows and add them at the destinations, and count the edges
  into each node, with operation for operation the same text: only the names of the two programs' shape facts differ,
  and those are proofs. So the reference's aggregate and degree ARE the kernel's, and the column the kernel's region
  finds holds the reference's degree of node `r` at row `r`.
-/
import proofs.«129463_j31671088841315_1_alg».proof.Proof.RefRead
import proofs.«129463_j31671088841315_1_alg».proof.Proof.Entry
import Idealize.ShloMosaic.Lib.Pipeline.Value
import Idealize.ShloMosaic.Lib.ValueIdx

noncomputable section

namespace Cert.SameHost

open Idealize.ShloMosaic Idealize.ShloMosaic.ValueIdx

variable {F : FTy → Type} [FloatOps F]

/-- The reference's aggregate is the kernel's. -/
theorem aggregate_same (x : (⟨Cert.ReferenceIdeal.S100000x64, .f32⟩ : BufTy).Contents (Elt F)) (e : (⟨Cert.ReferenceIdeal.S2x1600000, .i32⟩ : BufTy).Contents (Elt F)) :
    Cert.ReferenceIdeal.ReadP.val_main_v13 (F := F) x e = Cert.KernelIdeal.Entry.aggregate (F := F) x e := rfl

/-- The reference's degree is the kernel's. -/
theorem degree_same (e : (⟨Cert.ReferenceIdeal.S2x1600000, .i32⟩ : BufTy).Contents (Elt F)) :
    Cert.ReferenceIdeal.ReadP.val_main_v17 (F := F) e = Cert.KernelIdeal.Entry.degree (F := F) e := rfl

/-- Row `r` of the degree laid out as a column is the degree of node `r`. -/
theorem degree_column (e : (⟨Cert.ReferenceIdeal.S2x1600000, .i32⟩ : BufTy).Contents (Elt F)) (r : Fin 100000) :
    shapeCast Cert.KernelIdeal.S100000x1 (Cert.KernelIdeal.Entry.degree (F := F) e) Cert.KernelIdeal.Facts₀.shapeCasts_S100000_S100000x1 (ix2 r (0 : Fin 1))
      = Cert.ReferenceIdeal.ReadP.val_main_v17 (F := F) e (ix1 r) := by
  rw [degree_same]
  exact shapeCast_apply _ _ (ix2 r (0 : Fin 1)) (ix1 r) (by
    rw [Shape.rowMajor_val_one, Shape.rowMajor_val_two]
    show r.val = r.val * 1 + 0
    omega)

end Cert.SameHost

end
-- ==== Proof.lean ====
/-
  A degree-normalised graph aggregation followed by two linear maps, kernel against reference, over the extended reals.

  Both programs first compute on the host, by the same operations, the aggregate of every node (the feature rows of
  the nodes with an edge into it, added up) and its degree (the number of such edges). The kernel then, twenty row
  blocks of 5000 nodes at a time, replaces a zero degree by one, divides each aggregate row by its safe degree, and
  writes that row times the transpose of `W` plus the node's own feature row times the transpose of `B`; the
  reference does the same on whole arrays. Read at output entry `(r, q)` both are

      ∑ k, (agg r k / safe (deg r)) * W q k  +  ∑ k, x r k * B q k

  (Proof/Spec.lean), with the division before the product and the two sums apart on both sides: the kernel's narrowing
  of its factors to bf16 is the identity on extended reals and a product into a zero accumulator is the plain sum, so
  no law of arithmetic is needed and the finiteness of the inputs is not used.

  The pieces: Proof/Body.lean (what the body stores, at an entry), Proof/Array.lean (the twenty blocks are the rows of
  one function, and cover the array), Proof/Entry.lean (the aggregate and the degree column as the region finds them),
  Proof/Reference.lean (the reference's last stage at an entry), Proof/SameHost.lean (the two programs' aggregate and
  degree are the same terms). Here they are put together.
-/
import proofs.«129463_j31671088841315_1_alg».proof.Defs
import proofs.«129463_j31671088841315_1_alg».proof.Proof.Gen.Kernel
import proofs.«129463_j31671088841315_1_alg».proof.Proof.Gen.Kernel.Skeleton
import proofs.«129463_j31671088841315_1_alg».proof.Proof.Gen.Kernel.Launch
import proofs.«129463_j31671088841315_1_alg».proof.Proof.Gen.Kernel.Points
import proofs.«129463_j31671088841315_1_alg».proof.Proof.Gen.Kernel.Frame
import proofs.«129463_j31671088841315_1_alg».proof.Proof.Gen.KernelIdeal
import proofs.«129463_j31671088841315_1_alg».proof.Proof.Gen.KernelIdeal.Skeleton
import proofs.«129463_j31671088841315_1_alg».proof.Proof.Gen.KernelIdeal.Launch
import proofs.«129463_j31671088841315_1_alg».proof.Proof.Gen.KernelIdeal.Points
import proofs.«129463_j31671088841315_1_alg».proof.Proof.Gen.KernelIdeal.Frame
import proofs.«129463_j31671088841315_1_alg».proof.Proof.Gen.ReferenceIdeal
import proofs.«129463_j31671088841315_1_alg».proof.Proof.Gen.Pre_finite_inputs
import proofs.«129463_j31671088841315_1_alg».proof.Proof.Gen.KernelIdeal.Value
import proofs.«129463_j31671088841315_1_alg».proof.Proof.RefRun
import proofs.«129463_j31671088841315_1_alg».proof.Proof.RefRead
import proofs.«129463_j31671088841315_1_alg».proof.Proof.Spec
import proofs.«129463_j31671088841315_1_alg».proof.Proof.Body
import proofs.«129463_j31671088841315_1_alg».proof.Proof.Entry
import proofs.«129463_j31671088841315_1_alg».proof.Proof.Array
import proofs.«129463_j31671088841315_1_alg».proof.Proof.Reference
import proofs.«129463_j31671088841315_1_alg».proof.Proof.SameHost
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments as they were: the generated frame. -/
theorem frame_kernel : Cert.frame_Kernel := fun m ρ _ => Cert.Kernel.Gen.frame m ρ

/-- The same for the program read at the ideal instance. -/
theorem frame_kernelIdeal : Cert.frame_KernelIdeal := fun m ρ _ => Cert.KernelIdeal.Gen.frame m ρ

/-- The reference runs and leaves its arguments as they were: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing in this kernel. -/
theorem preserves : Cert.preserves_Kernel_KernelIdeal := trivial

/-- From memories that agree on the arguments, the kernel's output array and the reference's result are the same
    function of the features, the edges and the two weight matrices: `result` of the aggregate, the features, the
    degree and the weights, the aggregate and the degree being the same host terms in both programs. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, Cert.ReferenceIdeal.AtEntry.result_eq,
    (hagree c).1, (hagree c).2.1, (hagree c).2.2.1, (hagree c).2.2.2, Cert.SameHost.aggregate_same]
  show _ = Cert.DualLinear.result (Cert.KernelIdeal.Gen.V m c Cert.KernelIdeal.main_v13) (Cert.KernelIdeal.Gen.V m c Cert.KernelIdeal.main_arg0)
    (fun r => (Cert.KernelIdeal.Gen.V m c Cert.KernelIdeal.main_v18 : Cert.KernelIdeal.S100000x1.Idx → EReal) (ix2 r 0))
    (Cert.KernelIdeal.Gen.V m c Cert.KernelIdeal.main_arg2) (Cert.KernelIdeal.Gen.V m c Cert.KernelIdeal.main_arg3)
  rw [Cert.KernelIdeal.Gen.V_main_arg0, Cert.KernelIdeal.Gen.V_main_arg2, Cert.KernelIdeal.Gen.V_main_arg3,
    Cert.KernelIdeal.Entry.found_aggregate, Cert.KernelIdeal.Entry.found_degree]
  refine congrArg (fun d => Cert.DualLinear.result _ _ d _ _) (funext fun r => ?_)
  exact (Cert.SameHost.degree_column _ r).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
